-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x768 .f32) (main_arg1 : IVec S2x800000 32) (main_arg2 : FVec F S768x256 .f32) (main_arg3 : FVec F S256 .f32) (main_arg4 : FVec F S256x256 .f32) (main_arg5 : FVec F S256 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x768 : Shape := ⟨2, ![2000, 768]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 83
  | .vmem => 20
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x256, .f32⟩
  | .hbm, ⟨75, _⟩ => ⟨S850000x256, .f32⟩
  | .hbm, ⟨76, _⟩ => ⟨S850000x256, .f32⟩
  | .hbm, ⟨77, _⟩ => ⟨S_, .f32⟩
  | .hbm, ⟨78, _⟩ => ⟨S50000x256, .f32⟩
  | .hbm, ⟨79, _⟩ => ⟨S850000x1, .i32⟩
  | .hbm, ⟨80, _⟩ => ⟨S50000x256, .f32⟩
  | .hbm, ⟨81, _⟩ => ⟨S1x256, .f32⟩
  | .hbm, ⟨82, _⟩ => ⟨S50000x256, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x768_S768x256_S2000x256_1_0_0_1_n_n_wf : DotDims.WF S2000x768 S768x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 108
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x256, .f32⟩
  | .hbm, ⟨98, _⟩ => ⟨S850000x1, .f32⟩
  | .hbm, ⟨99, _⟩ => ⟨S850000x256, .f32⟩
  | .hbm, ⟨100, _⟩ => ⟨S850000x256, .f32⟩
  | .hbm, ⟨101, _⟩ => ⟨S_, .f32⟩
  | .hbm, ⟨102, _⟩ => ⟨S50000x256, .f32⟩
  | .hbm, ⟨103, _⟩ => ⟨S850000x1, .i32⟩
  | .hbm, ⟨104, _⟩ => ⟨S50000x256, .f32⟩
  | .hbm, ⟨105, _⟩ => ⟨S1x256, .f32⟩
  | .hbm, ⟨106, _⟩ => ⟨S50000x256, .f32⟩
  | .hbm, ⟨107, _⟩ => ⟨S50000x256, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  dot_S50000x768_S768x256_S50000x256_1_0_0_1_n_n_wf : DotDims.WF S50000x768 S768x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The pieces of a two-layer graph convolution as whole-array functions on the extended reals.

  A layer multiplies the node features by a weight matrix, gathers the product's rows along the edges, scales
  them, adds them up per target node, and adds a bias row (the first layer then clamps at zero). The gather,
  scale and add-up step is the same text in both programs and is carried as an opaque function elsewhere; what
  differs between the programs is how the matrix product and the bias step are spelt. Here are those two as plain
  functions of an index: entry (p, j) of a product is the sum over the inner axis of l (p, a) * r (a, j), and the
  bias step adds entry j of the row to every entry of column j.
-/
import Idealize.ShloMosaic.Lib.ValueIdx
import Idealize.ShloMosaic.PureOps.Ideal.Laws

noncomputable section

namespace Cert.Gcn

open Idealize.ShloMosaic Idealize.ShloMosaic.ValueIdx

/-- The product of an [M, K] array with a [K, N] array: entry (p, j) is the sum over a of l (p, a) * r (a, j). -/
def matProd {M K N : Nat} (l : (⟨2, ![M, K]⟩ : Shape).Idx → EReal) (r : (⟨2, ![K, N]⟩ : Shape).Idx → EReal) :
    (⟨2, ![M, N]⟩ : Shape).Idx → EReal :=
  fun i => ∑ a : Fin K, l (ix2 (i 0) a) * r (ix2 a (i 1))

theorem matProd_ix2 {M K N : Nat} (l : (⟨2, ![M, K]⟩ : Shape).Idx → EReal) (r : (⟨2, ![K, N]⟩ : Shape).Idx → EReal)
    (p : Fin M) (j : Fin N) : matProd l r (ix2 p j) = ∑ a : Fin K, l (ix2 p a) * r (ix2 a j) := rfl

/-- A row of N entries, given as a [1, N] array, added to every row of an [M, N] array. -/
def addRow {M N : Nat} (a : (⟨2, ![M, N]⟩ : Shape).Idx → EReal) (b : (⟨2, ![1, N]⟩ : Shape).Idx → EReal) :
    (⟨2, ![M, N]⟩ : Shape).Idx → EReal :=
  fun i => a i + b (ix2 0 (i 1))

/-- The same, then the larger of the sum and a fixed value z entry by entry (z is zero for a rectifier). -/
def addRowMax {M N : Nat} (z : EReal) (a : (⟨2, ![M, N]⟩ : Shape).Idx → EReal) (b : (⟨2, ![1, N]⟩ : Shape).Idx → EReal) :
    (⟨2, ![M, N]⟩ : Shape).Idx → EReal :=
  fun i => max (a i + b (ix2 0 (i 1))) z

end Cert.Gcn

end
-- ==== Proof.Shared.lean ====
/-
  The graph side of the convolution, as the host operations spell it, and the whole computation as one function.

  From the edge list e (two rows of 800000 node numbers) the host builds: the source and target of every edge
  followed by one self loop per node (850000 entries each); a node's degree, the number of entries that target it;
  its inverse square root where the degree is positive and zero elsewhere; and per entry the product of the two
  ends' inverse roots. Aggregation takes node features h, reads row src(k) for every entry k, scales it by the
  entry's factor, and adds it into row dst(k). A negative node number is counted from the end before it is used
  as a row number. Both programs apply exactly these operations, so they are named once here and never opened:
  the two programs differ only in what is aggregated.

  The whole computation: aggregate x W1, add the bias row b1 and clamp at zero; multiply by W2, aggregate,
  add the bias row b2.
-/
import proofs.«119783_j47150150975760_1_alg».proof.Proof.Gen.KernelIdeal
import proofs.«119783_j47150150975760_1_alg».proof.Proof.Spec

noncomputable section

namespace Cert.KernelIdeal.Glue

open Cert.KernelIdeal Cert.KernelIdeal.Gen Idealize.ShloMosaic Idealize.ShloMosaic.TcCoe Idealize.ShloMosaic.ValueIdx

variable {F : FTy → Type} [FloatOps F]

/-- The source of every entry: row 0 of the edge list, followed by the node numbers 0 … 49999 (the self loops). -/
def srcOf (e : (⟨S2x800000, .i32⟩ : BufTy).Contents (Elt F)) : (⟨S850000, .i32⟩ : BufTy).Contents (Elt F) :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

/-- The target of every entry: row 1 of the edge list, followed by the node numbers 0 … 49999. -/
def dstOf (e : (⟨S2x800000, .i32⟩ : BufTy).Contents (Elt F)) : (⟨S850000, .i32⟩ : BufTy).Contents (Elt F) :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- A negative node number counted from the end: k + 50000 where k < 0, else k. -/
def wrap (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- A node's degree: one added per entry that targets it. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- The inverse square root of the degree where it is positive, zero elsewhere. -/
def dinvOf (d : (⟨S850000, .i32⟩ : BufTy).Contents (Elt F)) : (⟨S50000, .f32⟩ : BufTy).Contents (Elt F) :=
  select (cmpf (F := F) .ogt (degOf d) (broadcastInDim S50000 ![] bcast_S_S50000 (constant S_ .f32 0x00000000#32))) (Host.rsqrt (degOf d)) (broadcastInDim S50000 ![] bcast_S_S50000 (id (constant S_ .f32 0x00000000#32)))

/-- Per entry, the product of its two ends' inverse roots, as a column. -/
def nrmOf (s d : (⟨S850000, .i32⟩ : BufTy).Contents (Elt F)) : (⟨S850000x1, .f32⟩ : BufTy).Contents (Elt F) :=
  broadcastInDim S850000x1 ![0] bcast_S850000_S850000x1_0 (mulf (Host.gather gather_S50000_S850000x1_S850000_n_0_n_n_0_1_1 (dinvOf d) (broadcastInDim S850000x1 ![0] bcast_S850000_S850000x1_0 (wrap s))) (Host.gather gather_S50000_S850000x1_S850000_n_0_n_n_0_1_1 (dinvOf d) (broadcastInDim S850000x1 ![0] bcast_S850000_S850000x1_0 (wrap d))))

/-- Aggregation: row src(k) of h, scaled by entry k's factor, added into row dst(k), over all entries k. -/
def agg (s d : (⟨S850000, .i32⟩ : BufTy).Contents (Elt F)) (n : (⟨S850000x1, .f32⟩ : BufTy).Contents (Elt F))
    (h : (⟨S50000x256, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 d) (mulf (Host.gather gather_S50000x256_S850000x1_S850000x256_1_0_n_n_0_1_1256 h (broadcastInDim S850000x1 ![0] bcast_S850000_S850000x1_0 (wrap s))) (broadcastInDim S850000x256 ![0, 1] bcast_S850000x1_S850000x256_0_1 n))

/-- Aggregation over the graph the edge list e describes. -/
def aggE (e : (⟨S2x800000, .i32⟩ : BufTy).Contents (Elt F)) (h : (⟨S50000x256, .f32⟩ : BufTy).Contents (Elt F)) :
    (⟨S50000x256, .f32⟩ : BufTy).Contents (Elt F) :=
  agg (srcOf e) (dstOf e) (nrmOf (srcOf e) (dstOf e)) h

/-- A vector of 256 entries as a [1, 256] row. -/
def row (b : (⟨S256, .f32⟩ : BufTy).Contents (Elt Ideal)) : (⟨2, ![1, 256]⟩ : Shape).Idx → EReal :=
  fun k => b (ix1 (k 1))

/-- The hidden features: aggregate x W1, add b1, clamp at zero. -/
def hidden (x : (⟨S50000x768, .f32⟩ : BufTy).Contents (Elt Ideal)) (e : (⟨S2x800000, .i32⟩ : BufTy).Contents (Elt Ideal))
    (W1 : (⟨S768x256, .f32⟩ : BufTy).Contents (Elt Ideal)) (b1 : (⟨S256, .f32⟩ : BufTy).Contents (Elt Ideal)) :
    (⟨2, ![50000, 256]⟩ : Shape).Idx → EReal :=
  Cert.Gcn.addRowMax (Ideal.ofBits .f32 0x00000000#32) (aggE (F := Ideal) e (Cert.Gcn.matProd x W1)) (row b1)

/-- The result: aggregate hidden W2, add b2. -/
def gcn (x : (⟨S50000x768, .f32⟩ : BufTy).Contents (Elt Ideal)) (e : (⟨S2x800000, .i32⟩ : BufTy).Contents (Elt Ideal))
    (W1 : (⟨S768x256, .f32⟩ : BufTy).Contents (Elt Ideal)) (b1 : (⟨S256, .f32⟩ : BufTy).Contents (Elt Ideal))
    (W2 : (⟨S256x256, .f32⟩ : BufTy).Contents (Elt Ideal)) (b2 : (⟨S256, .f32⟩ : BufTy).Contents (Elt Ideal)) :
    (⟨2, ![50000, 256]⟩ : Shape).Idx → EReal :=
  Cert.Gcn.addRow (aggE (F := Ideal) e (Cert.Gcn.matProd (hidden x e W1 b1) W2)) (row b2)

end Cert.KernelIdeal.Glue

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Region0.lean ====
/-
  The first matrix product, region by region of 2000 rows: grid point t multiplies rows 2000 t … 2000 t + 1999 of x
  (all 768 columns) by the whole of W1 and writes rows 2000 t … 2000 t + 1999 of the result; the 25 points cover the
  50000 rows, so the result array ends holding the product of the two arrays as the region found them.
-/
import proofs.«119783_j47150150975760_1_alg».proof.Proof.Gen.KernelIdeal.Frame
import proofs.«119783_j47150150975760_1_alg».proof.Proof.Spec
import proofs.«119783_j47150150975760_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents when the region is entered: any
variable (V : (c : Dev nD) → (b : Ref sig .tc) → Buf (Elt Ideal) ((c : Thread nD τ).loc b))

/-! ## The product's dimension numbers, coordinate by coordinate

The left operand [2000, 768] is read at (row of the result, inner position), the right operand [768, 256] at
(inner position, column of the result). -/

theorem lhs_row (i : S2000x256.Idx) (q : dot_S2000x768_S768x256_S2000x256_1_0_0_1_n_n.contr.Idx) :
    (dot_S2000x768_S768x256_S2000x256_1_0_0_1_n_n.lhsIdx i q 0).val = (i 0).val := by
  unfold DotDims.lhsIdx
  rw [dif_neg (show ¬(0 : Fin S2000x768.rank) ∈ dot_S2000x768_S768x256_S2000x256_1_0_0_1_n_n.lhsBatch by decide),
    dif_pos (show (0 : Fin S2000x768.rank) ∈ dot_S2000x768_S768x256_S2000x256_1_0_0_1_n_n.lhsNonContracting by decide)]
  rfl

theorem lhs_inner (i : S2000x256.Idx) (q : dot_S2000x768_S768x256_S2000x256_1_0_0_1_n_n.contr.Idx) :
    (dot_S2000x768_S768x256_S2000x256_1_0_0_1_n_n.lhsIdx i q 1).val = (q ⟨0, by decide⟩).val :=
  dot_S2000x768_S768x256_S2000x256_1_0_0_1_n_n.lhsIdx_val_of_single rfl i q

theorem rhs_inner (i : S2000x256.Idx) (q : dot_S2000x768_S768x256_S2000x256_1_0_0_1_n_n.contr.Idx) :
    (dot_S2000x768_S768x256_S2000x256_1_0_0_1_n_n.rhsIdx i q 0).val = (q ⟨0, by decide⟩).val :=
  dot_S2000x768_S768x256_S2000x256_1_0_0_1_n_n.rhsIdx_val_of_single rfl i q

theorem rhs_col (i : S2000x256.Idx) (q : dot_S2000x768_S768x256_S2000x256_1_0_0_1_n_n.contr.Idx) :
    (dot_S2000x768_S768x256_S2000x256_1_0_0_1_n_n.rhsIdx i q 1).val = (i 1).val := by
  unfold DotDims.rhsIdx
  rw [dif_neg (show ¬(1 : Fin S768x256.rank) ∈ dot_S2000x768_S768x256_S2000x256_1_0_0_1_n_n.rhsBatch by decide),
    dif_pos (show (1 : Fin S768x256.rank) ∈ dot_S2000x768_S768x256_S2000x256_1_0_0_1_n_n.rhsNonContracting by decide)]
  rfl

/-! ## The body's payload at an entry -/

/-- The stored block at row `p`, column `q`: the two loaded blocks, rounded to the narrower format (the identity on the
    extended reals), multiplied into the zero accumulator — the sum over the 768 inner positions. -/
theorem payload_apply (x0 : Vec Ideal S2000x768 .f32) (x1 : Vec Ideal S768x256 .f32) (p : Fin 2000) (q : Fin 256) :
    (k0_pay1 (F := Ideal) x0 x1 : S2000x256.Idx → EReal) (ix2 p q) = ∑ a : Fin 768, x0 (ix2 p a) * x1 (ix2 a q) := by
  unfold k0_pay1
  exact Cert.Lib.Dot2.matmul_zero_ix2 dot_S2000x768_S768x256_S2000x256_1_0_0_1_n_n none rfl rfl lhs_row lhs_inner rhs_inner rhs_col
    (truncf .bf16 x0 bitsLt_bf16_f32) (truncf .bf16 x1 bitsLt_bf16_f32) p q

theorem hz : (![0, 0] : Fin 2 → Nat) = fun _ => 0 := funext fun a => by fin_cases a <;> rfl

/-- The printed index maps over the 25 grid points: the x window and the result window sit at block row `t`, the weight
    window at the one block there is. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them: entry (p, q) of
    the body's block is the sum over a of the x block at (p, a) times the weight block at (a, q), and those are the arrays
    at (2000 t + p, a) and (a, q). -/
theorem flushed_eq (c : Dev nD) (t : Fin cfg0.N) :
    (dat0 (F := Ideal) V c).flushed 2 t
      = ((cfg0.win 2).blk t).view.read (Elt Ideal) (Cert.Gcn.matProd (V c main_arg0) (V c main_arg2)) := by
  show (cfg0.win 2).cut (grid0.coords t) ((dat0 V c).after 2 t) = _
  rw [after0_2]
  unfold out0_2
  rw [View.canon_unit_zero hz]
  simp only [View.ld_unit_zero (S := S2000x768) hz, View.ld_unit_zero (S := S768x256) hz]
  funext j
  show (k0_pay1 (F := Ideal) (iblk0 V c 0 t) (iblk0 V c 1 t) : S2000x256.Idx → EReal) j
    = Cert.Gcn.matProd (V c main_arg0) (V c main_arg2) (((cfg0.win 2).blk t).view.emb j)
  obtain ⟨p, q, rfl⟩ : ∃ (p : Fin 2000) (q : Fin 256), j = ix2 p q := ⟨j 0, j 1, eq_ix2 j⟩
  refine (payload_apply _ _ p q).trans ?_
  obtain ⟨e00, e01, e10, e11, e20, e21⟩ := index_facts t
  refine Finset.sum_congr rfl fun a _ => ?_
  refine congrArg₂ (· * ·) ?_ ?_
  · show V c main_arg0 (((cfg0.win 0).blk t).view.emb (ix2 p a)) = V c main_arg0 _
    refine congrArg _ (funext fun d => Fin.ext ?_)
    match d with
    | ⟨0, _⟩ =>
      show win0_0.index t (0 : Fin 2) * 2000 + 1 * p.val = win0_2.index t (0 : Fin 2) * 2000 + 1 * p.val
      omega
    | ⟨1, _⟩ =>
      show win0_0.index t (1 : Fin 2) * 768 + 1 * a.val = a.val
      omega
  · show V c main_arg2 (((cfg0.win 1).blk t).view.emb (ix2 a q)) = V c main_arg2 _
    refine congrArg _ (funext fun d => Fin.ext ?_)
    match d with
    | ⟨0, _⟩ =>
      show win0_1.index t (0 : Fin 2) * 768 + 1 * a.val = a.val
      omega
    | ⟨1, _⟩ =>
      show win0_1.index t (1 : Fin 2) * 256 + 1 * q.val = win0_2.index t (1 : Fin 2) * 256 + 1 * q.val
      omega

/-- An index of the result array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v31).slice (win0_2.rect t)).set ↔ _
  rw [View.set_slice_whole, Rect.mem_set_unit]
  exact Iff.rfl

/-- Row `r` of the result lies in the block of point `r / 2000`: the 25 blocks of 2000 rows cover the 50000 rows. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e20, e21⟩ := index_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- After the first product's 25 grid points the result array holds the whole product. -/
theorem product (c : Dev nD) :
    (dat0 (F := Ideal) V c).arrAt 2 cfg0.N = Cert.Gcn.matProd (V c main_arg0) (V c main_arg2) :=
  (dat0 (F := Ideal) V c).arrAt_eq_of_cover 2 (Cert.Gcn.matProd (V c main_arg0) (V c main_arg2))
    (fun t _ => flushed_eq V c t) cover

end Cert.KernelIdeal.Region0

end
-- ==== Proof.Region1.lean ====
/-
  The first bias step, 2000 rows at a time: grid point t adds the [1, 256] bias row to rows 2000 t … 2000 t + 1999 of the
  aggregate and takes the larger of each sum and zero; the 25 points cover the 50000 rows.
-/
import proofs.«119783_j47150150975760_1_alg».proof.Proof.Gen.KernelIdeal.Frame
import proofs.«119783_j47150150975760_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents when the region is entered: any
variable (V : (c : Dev nD) → (b : Ref sig .tc) → Buf (Elt Ideal) ((c : Thread nD τ).loc b))

/-- The offsets of a whole-buffer access, as the constant function. -/
theorem zero_offsets : (![0, 0] : Fin 2 → Nat) = fun _ => 0 := funext fun a => by fin_cases a <;> rfl

/-- The block indices over the grid: at point t the aggregate's window and the result's window sit at block (t, 0), the
    bias row's window at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the body computes at entry (p, q) of its block: the aggregate block's entry plus entry q of the row, or zero
    if that is larger. -/
theorem pay_apply (x0 : Vec Ideal S2000x256 .f32) (x1 : Vec Ideal S1x256 .f32) (p : Fin 2000) (q : Fin 256) :
    k1_pay1 (F := Ideal) x0 x1 (ix2 p q) = max (x0 (ix2 p q) + x1 (ix2 0 q)) (Ideal.ofBits .f32 0x00000000#32) := by
  unfold k1_pay1
  rw [shapeCast_self, shapeCast_self]
  have hrow : broadcastTo S2000x256 x1 broadcasts_S1x256_S2000x256 (ix2 p q) = x1 (ix2 0 q) :=
    broadcastTo_apply x1 broadcasts_S1x256_S2000x256 (ix2 p q) (ix2 0 q) (fun a => by
      match a with
      | ⟨0, _⟩ => rfl
      | ⟨1, _⟩ => rfl)
  show max (x0 (ix2 p q) + broadcastTo S2000x256 x1 broadcasts_S1x256_S2000x256 (ix2 p q)) (Ideal.ofBits .f32 0x00000000#32) = _
  rw [hrow]

/-- The aggregate's block at point t is rows 2000 t … 2000 t + 1999 of the aggregate. -/
theorem agg_block_apply (c : Dev nD) (t : Fin cfg1.N) (y : S2000x256.Idx) (i : S50000x256.Idx)
    (h0 : (i 0).val = t.val * 2000 + (y 0).val) (h1 : (i 1).val = (y 1).val) :
    (iblk1 (F := Ideal) V c 0 t : Vec Ideal S2000x256 .f32) y = (V c main_v43 : S50000x256.Idx → EReal) i := by
  obtain ⟨e0, e1, -, -, -, -⟩ := block_indices t
  show V c main_v43 (((cfg1.win 0).blk t).view.emb y) = V c main_v43 i
  refine congrArg (V c main_v43) ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The bias row's block is the whole row at every point. -/
theorem row_block_apply (c : Dev nD) (t : Fin cfg1.N) (y : S1x256.Idx) (i : S1x256.Idx)
    (h0 : (i 0).val = (y 0).val) (h1 : (i 1).val = (y 1).val) :
    (iblk1 (F := Ideal) V c 1 t : Vec Ideal S1x256 .f32) y = (V c main_v44 : S1x256.Idx → EReal) i := by
  obtain ⟨-, -, e2, e3, -, -⟩ := block_indices t
  show V c main_v44 (((cfg1.win 1).blk t).view.emb y) = V c main_v44 i
  refine congrArg (V c main_v44) ?_
  funext a
  apply Fin.ext
  match a with
  | ⟨0, _⟩ => show win1_1.index t (0 : Fin 2) * 1 + 1 * (y 0).val = (i 0).val; rw [e2, h0]; omega
  | ⟨1, _⟩ => show win1_1.index t (1 : Fin 2) * 256 + 1 * (y 1).val = (i 1).val; rw [e3, h1]; omega

/-- What point t writes back is its block of the aggregate plus the bias row, clamped at zero. -/
theorem flushed_eq (c : Dev nD) (t : Fin cfg1.N) :
    (dat1 (F := Ideal) V c).flushed 2 t = ((cfg1.win 2).blk t).view.read (Elt Ideal)
      (Cert.Gcn.addRowMax (Ideal.ofBits .f32 0x00000000#32) (V c main_v43) (V c main_v44)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S1x256) zero_offsets]
  funext j
  obtain ⟨p, q, rfl⟩ : ∃ (p : Fin 2000) (q : Fin 256), j = ix2 p q := ⟨j 0, j 1, eq_ix2 j⟩
  obtain ⟨-, -, -, -, e4, e5⟩ := block_indices t
  have hp : ((((cfg1.win 2).blk t).view.emb (ix2 p q)) 0).val = t.val * 2000 + p.val := by
    show win1_2.index t (0 : Fin 2) * 2000 + 1 * p.val = _
    rw [e4]; omega
  have hq : ((((cfg1.win 2).blk t).view.emb (ix2 p q)) 1).val = q.val := by
    show win1_2.index t (1 : Fin 2) * 256 + 1 * q.val = _
    rw [e5]; omega
  have ha := agg_block_apply V c t (ix2 p q) (((cfg1.win 2).blk t).view.emb (ix2 p q)) hp hq
  have hb := row_block_apply V c t (ix2 0 q) (ix2 0 ((((cfg1.win 2).blk t).view.emb (ix2 p q)) 1)) rfl hq
  show k1_pay1 (F := Ideal) (iblk1 V c 0 t) (iblk1 V c 1 t) (ix2 p q)
    = Cert.Gcn.addRowMax (Ideal.ofBits .f32 0x00000000#32) (V c main_v43) (V c main_v44) (((cfg1.win 2).blk t).view.emb (ix2 p q))
  refine (pay_apply (iblk1 V c 0 t) (iblk1 V c 1 t) p q).trans ?_
  rw [ha, hb]
  rfl

/-- An index of the result array is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v45).slice (win1_2.rect t)).set ↔ _
  rw [View.set_slice_whole, Rect.mem_set_unit]
  exact Iff.rfl

/-- Row r of the result array lies in the block of point r / 2000, so the 25 blocks cover the array. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, e4, e5⟩ := block_indices ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 256 ≤ (i 1).val
      ∧ (i 1).val < win1_2.index ⟨(i 0).val / 2000, ht⟩ (1 : Fin 2) * 256 + 256
    rw [e5]
    omega

/-- After the 25 grid points the result array holds the aggregate plus the bias row, clamped at zero. -/
theorem biased (c : Dev nD) :
    (dat1 (F := Ideal) V c).arrAt 2 cfg1.N = Cert.Gcn.addRowMax (Ideal.ofBits .f32 0x00000000#32) (V c main_v43) (V c main_v44) := by
  exact (dat1 (F := Ideal) V c).arrAt_eq_of_cover 2
    (Cert.Gcn.addRowMax (Ideal.ofBits .f32 0x00000000#32) (V c main_v43) (V c main_v44))
    (fun t _ => flushed_eq V c t) cover

end Cert.KernelIdeal.Region1

end
-- ==== Proof.Region2.lean ====
/-
  The second matrix product, region by region of 2000 rows: grid point t multiplies rows 2000 t … 2000 t + 1999 of the
  hidden features (all 256 columns) by the whole of W2 and writes the same rows of the result; the 25 points cover the
  50000 rows, so the result array ends holding the product of the two arrays as the region found them.
-/
import proofs.«119783_j47150150975760_1_alg».proof.Proof.Gen.KernelIdeal.Frame
import proofs.«119783_j47150150975760_1_alg».proof.Proof.Spec
import proofs.«119783_j47150150975760_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents when the region is entered: any
variable (V : (c : Dev nD) → (b : Ref sig .tc) → Buf (Elt Ideal) ((c : Thread nD τ).loc b))

/-! ## The product's dimension numbers, coordinate by coordinate

The left operand [2000, 256] is read at (row of the result, inner position), the right operand [256, 256] at
(inner position, column of the result). -/

theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs_inner (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

theorem rhs_inner (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-! ## The body's payload at an entry -/

/-- The stored block at row `p`, column `q`: the hidden-feature block (its cast to its own shape is the identity) and
    the weight block, rounded to the narrower format (the identity on the extended reals), multiplied into the zero
    accumulator — the sum over the 256 inner positions. -/
theorem payload_apply (x0 : Vec Ideal S2000x256 .f32) (x1 : Vec Ideal S256x256 .f32) (p : Fin 2000) (q : Fin 256) :
    (k2_pay1 (F := Ideal) x0 x1 : S2000x256.Idx → EReal) (ix2 p q) = ∑ a : Fin 256, x0 (ix2 p a) * x1 (ix2 a q) := by
  unfold k2_pay1
  rw [shapeCast_self]
  exact Cert.Lib.Dot2.matmul_zero_ix2 dot_S2000x256_S256x256_S2000x256_1_0_0_1_n_n none rfl rfl lhs_row lhs_inner rhs_inner rhs_col
    (truncf .bf16 x0 bitsLt_bf16_f32) (truncf .bf16 x1 bitsLt_bf16_f32) p q

theorem hz : (![0, 0] : Fin 2 → Nat) = fun _ => 0 := funext fun a => by fin_cases a <;> rfl

/-- The printed index maps over the 25 grid points: the hidden-feature window and the result window sit at block row
    `t`, the weight window at the one block there is. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them: entry (p, q) of
    the body's block is the sum over a of the hidden-feature block at (p, a) times the weight block at (a, q), and those
    are the arrays at (2000 t + p, a) and (a, q). -/
theorem flushed_eq (c : Dev nD) (t : Fin cfg2.N) :
    (dat2 (F := Ideal) V c).flushed 2 t
      = ((cfg2.win 2).blk t).view.read (Elt Ideal) (Cert.Gcn.matProd (V c main_v45) (V c main_arg4)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  funext j
  show (k2_pay1 (F := Ideal) (iblk2 V c 0 t) (iblk2 V c 1 t) : S2000x256.Idx → EReal) j
    = Cert.Gcn.matProd (V c main_v45) (V c main_arg4) (((cfg2.win 2).blk t).view.emb j)
  obtain ⟨p, q, rfl⟩ : ∃ (p : Fin 2000) (q : Fin 256), j = ix2 p q := ⟨j 0, j 1, eq_ix2 j⟩
  refine (payload_apply _ _ p q).trans ?_
  obtain ⟨e00, e01, e10, e11, e20, e21⟩ := index_facts t
  refine Finset.sum_congr rfl fun a _ => ?_
  refine congrArg₂ (· * ·) ?_ ?_
  · show V c main_v45 (((cfg2.win 0).blk t).view.emb (ix2 p a)) = V c main_v45 _
    refine congrArg _ (funext fun d => Fin.ext ?_)
    match d with
    | ⟨0, _⟩ =>
      show win2_0.index t (0 : Fin 2) * 2000 + 1 * p.val = win2_2.index t (0 : Fin 2) * 2000 + 1 * p.val
      omega
    | ⟨1, _⟩ =>
      show win2_0.index t (1 : Fin 2) * 256 + 1 * a.val = a.val
      omega
  · show V c main_arg4 (((cfg2.win 1).blk t).view.emb (ix2 a q)) = V c main_arg4 _
    refine congrArg _ (funext fun d => Fin.ext ?_)
    match d with
    | ⟨0, _⟩ =>
      show win2_1.index t (0 : Fin 2) * 256 + 1 * a.val = a.val
      omega
    | ⟨1, _⟩ =>
      show win2_1.index t (1 : Fin 2) * 256 + 1 * q.val = win2_2.index t (1 : Fin 2) * 256 + 1 * q.val
      omega

/-- An index of the result array is in point `t`'s block iff each coordinate is in the block's range on its axis. -/
theorem mem_blk (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v46).slice (win2_2.rect t)).set ↔ _
  rw [View.set_slice_whole, Rect.mem_set_unit]
  exact Iff.rfl

/-- Row `r` of the result lies in the block of point `r / 2000`: the 25 blocks of 2000 rows cover the 50000 rows. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, e20, e21⟩ := index_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 256 ≤ (i 1).val ∧ (i 1).val < win2_2.index t (1 : Fin 2) * 256 + 256
    omega

/-- After the second product's 25 grid points the result array holds the whole product. -/
theorem product (c : Dev nD) :
    (dat2 (F := Ideal) V c).arrAt 2 cfg2.N = Cert.Gcn.matProd (V c main_v45) (V c main_arg4) :=
  (dat2 (F := Ideal) V c).arrAt_eq_of_cover 2 (Cert.Gcn.matProd (V c main_v45) (V c main_arg4))
    (fun t _ => flushed_eq V c t) cover

end Cert.KernelIdeal.Region2

end
-- ==== Proof.Region3.lean ====
/-
  The second bias step, 2000 rows at a time: grid point t adds the [1, 256] bias row to rows 2000 t … 2000 t + 1999 of the
  aggregate; the 25 points cover the 50000 rows.
-/
import proofs.«119783_j47150150975760_1_alg».proof.Proof.Gen.KernelIdeal.Frame
import proofs.«119783_j47150150975760_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents when the region is entered: any
variable (V : (c : Dev nD) → (b : Ref sig .tc) → Buf (Elt Ideal) ((c : Thread nD τ).loc b))

/-- The offsets of a whole-buffer access, as the constant function. -/
theorem zero_offsets : (![0, 0] : Fin 2 → Nat) = fun _ => 0 := funext fun a => by fin_cases a <;> rfl

/-- The block indices over the grid: at point t the aggregate's window and the result's window sit at block (t, 0), the
    bias row's window at block (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the body computes at entry (p, q) of its block: the aggregate block's entry plus entry q of the row. -/
theorem pay_apply (x0 : Vec Ideal S2000x256 .f32) (x1 : Vec Ideal S1x256 .f32) (p : Fin 2000) (q : Fin 256) :
    k3_pay1 (F := Ideal) x0 x1 (ix2 p q) = x0 (ix2 p q) + x1 (ix2 0 q) := by
  unfold k3_pay1
  rw [shapeCast_self, shapeCast_self]
  have hrow : broadcastTo S2000x256 x1 broadcasts_S1x256_S2000x256 (ix2 p q) = x1 (ix2 0 q) :=
    broadcastTo_apply x1 broadcasts_S1x256_S2000x256 (ix2 p q) (ix2 0 q) (fun a => by
      match a with
      | ⟨0, _⟩ => rfl
      | ⟨1, _⟩ => rfl)
  show x0 (ix2 p q) + broadcastTo S2000x256 x1 broadcasts_S1x256_S2000x256 (ix2 p q) = _
  rw [hrow]

/-- The aggregate's block at point t is rows 2000 t … 2000 t + 1999 of the aggregate. -/
theorem agg_block_apply (c : Dev nD) (t : Fin cfg3.N) (y : S2000x256.Idx) (i : S50000x256.Idx)
    (h0 : (i 0).val = t.val * 2000 + (y 0).val) (h1 : (i 1).val = (y 1).val) :
    (iblk3 (F := Ideal) V c 0 t : Vec Ideal S2000x256 .f32) y = (V c main_v58 : S50000x256.Idx → EReal) i := by
  obtain ⟨e0, e1, -, -, -, -⟩ := block_indices t
  show V c main_v58 (((cfg3.win 0).blk t).view.emb y) = V c main_v58 i
  refine congrArg (V c main_v58) ?_
  funext a
  apply Fin.ext
  match a with
  | ⟨0, _⟩ => show win3_0.index t (0 : Fin 2) * 2000 + 1 * (y 0).val = (i 0).val; rw [e0, h0]; omega
  | ⟨1, _⟩ => show win3_0.index t (1 : Fin 2) * 256 + 1 * (y 1).val = (i 1).val; rw [e1, h1]; omega

/-- The bias row's block is the whole row at every point. -/
theorem row_block_apply (c : Dev nD) (t : Fin cfg3.N) (y : S1x256.Idx) (i : S1x256.Idx)
    (h0 : (i 0).val = (y 0).val) (h1 : (i 1).val = (y 1).val) :
    (iblk3 (F := Ideal) V c 1 t : Vec Ideal S1x256 .f32) y = (V c main_v59 : S1x256.Idx → EReal) i := by
  obtain ⟨-, -, e2, e3, -, -⟩ := block_indices t
  show V c main_v59 (((cfg3.win 1).blk t).view.emb y) = V c main_v59 i
  refine congrArg (V c main_v59) ?_
  funext a
  apply Fin.ext
  match a with
  | ⟨0, _⟩ => show win3_1.index t (0 : Fin 2) * 1 + 1 * (y 0).val = (i 0).val; rw [e2, h0]; omega
  | ⟨1, _⟩ => show win3_1.index t (1 : Fin 2) * 256 + 1 * (y 1).val = (i 1).val; rw [e3, h1]; omega

/-- What point t writes back is its block of the aggregate plus the bias row. -/
theorem flushed_eq (c : Dev nD) (t : Fin cfg3.N) :
    (dat3 (F := Ideal) V c).flushed 2 t = ((cfg3.win 2).blk t).view.read (Elt Ideal)
      (Cert.Gcn.addRow (V c main_v58) (V c main_v59)) := by
  show (cfg3.win 2).cut (grid3.coords t) ((dat3 V c).after 2 t) = _
  rw [after3_2]
  unfold out3_2
  rw [View.canon_unit_zero zero_offsets]
  simp only [View.ld_unit_zero (S := S2000x256) zero_offsets, View.ld_unit_zero (S := S1x256) zero_offsets]
  funext j
  obtain ⟨p, q, rfl⟩ : ∃ (p : Fin 2000) (q : Fin 256), j = ix2 p q := ⟨j 0, j 1, eq_ix2 j⟩
  obtain ⟨-, -, -, -, e4, e5⟩ := block_indices t
  have hp : ((((cfg3.win 2).blk t).view.emb (ix2 p q)) 0).val = t.val * 2000 + p.val := by
    show win3_2.index t (0 : Fin 2) * 2000 + 1 * p.val = _
    rw [e4]; omega
  have hq : ((((cfg3.win 2).blk t).view.emb (ix2 p q)) 1).val = q.val := by
    show win3_2.index t (1 : Fin 2) * 256 + 1 * q.val = _
    rw [e5]; omega
  have ha := agg_block_apply V c t (ix2 p q) (((cfg3.win 2).blk t).view.emb (ix2 p q)) hp hq
  have hb := row_block_apply V c t (ix2 0 q) (ix2 0 ((((cfg3.win 2).blk t).view.emb (ix2 p q)) 1)) rfl hq
  show k3_pay1 (F := Ideal) (iblk3 V c 0 t) (iblk3 V c 1 t) (ix2 p q)
    = Cert.Gcn.addRow (V c main_v58) (V c main_v59) (((cfg3.win 2).blk t).view.emb (ix2 p q))
  refine (pay_apply (iblk3 V c 0 t) (iblk3 V c 1 t) p q).trans ?_
  rw [ha, hb]
  rfl

/-- An index of the result array is in point t's block iff each coordinate is in the block's range on its axis. -/
theorem mem_blk (t : Fin cfg3.N) (i : S50000x256.Idx) :
    i ∈ ((cfg3.win 2).blk t).view.set ↔ ∀ a : Fin 2, win3_2.index t a * S2000x256.size a ≤ (i a).val
      ∧ (i a).val < win3_2.index t a * S2000x256.size a + S2000x256.size a := by
  show i ∈ ((View.whole main_v60).slice (win3_2.rect t)).set ↔ _
  rw [View.set_slice_whole, Rect.mem_set_unit]
  exact Iff.rfl

/-- Row r of the result array lies in the block of point r / 2000, so the 25 blocks cover the array. -/
theorem cover (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  have ht : (i 0).val / 2000 < cfg3.N := by rw [hN]; omega
  obtain ⟨-, -, -, -, e4, e5⟩ := block_indices ⟨(i 0).val / 2000, ht⟩
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 256 ≤ (i 1).val
      ∧ (i 1).val < win3_2.index ⟨(i 0).val / 2000, ht⟩ (1 : Fin 2) * 256 + 256
    rw [e5]
    omega

/-- After the 25 grid points the result array holds the aggregate plus the bias row. -/
theorem biased (c : Dev nD) :
    (dat3 (F := Ideal) V c).arrAt 2 cfg3.N = Cert.Gcn.addRow (V c main_v58) (V c main_v59) := by
  exact (dat3 (F := Ideal) V c).arrAt_eq_of_cover 2
    (Cert.Gcn.addRow (V c main_v58) (V c main_v59))
    (fun t _ => flushed_eq V c t) cover

end Cert.KernelIdeal.Region3

end
-- ==== Proof.Walk.lean ====
/-
  The kernel program's result as one function of its arguments.

  The run is a chain of boundaries: three host stretches (the graph bookkeeping), the first product, a host stretch
  (the first aggregation), the first bias step, the second product, a host stretch (the second aggregation), the
  second bias step. At each boundary the buffers that later steps still read are named as functions of the
  arguments: a region leaves its result array at its closed form and every other buffer as it was; a host stretch
  leaves the buffers it writes at its operations' composed term and every other buffer as it was.
-/
import proofs.«119783_j47150150975760_1_alg».proof.Proof.Gen.KernelIdeal.Frame
import proofs.«119783_j47150150975760_1_alg».proof.Proof.Shared
import proofs.«119783_j47150150975760_1_alg».proof.Proof.Region0
import proofs.«119783_j47150150975760_1_alg».proof.Proof.Region1
import proofs.«119783_j47150150975760_1_alg».proof.Proof.Region2
import proofs.«119783_j47150150975760_1_alg».proof.Proof.Region3
import Idealize.ShloMosaic.Lib.StableHlo.Run
import Idealize.ShloMosaic.Lib.Pipeline.Value

set_option maxRecDepth 16384

noncomputable section

namespace Cert.KernelIdeal.Walk

open Cert.KernelIdeal Cert.KernelIdeal.Gen Idealize.ShloMosaic Idealize.ShloMosaic.TcCoe Idealize.ShloMosaic.ValueIdx
open Idealize.SL.Sem
open Idealize.ShloMosaic.Pipeline (Dat Cfg Window)

open Cert.KernelIdeal.Glue Idealize.ShloMosaic.StableHlo

variable (m : (ℓ : Loc nD τ sig) → Buf (Elt Ideal) ℓ) (ρ : Dev nD → PrngReg)

/-- A buffer that no operation of a host stretch writes is left as it was. -/
local macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The edge list as launched. -/
abbrev edges (c : Dev nD) : (⟨S2x800000, .i32⟩ : BufTy).Contents (Elt Ideal) := m ((c : Thread nD τ).loc main_arg1)

/-! ## The factor column, for any float family -/

section AnyFamily
variable {F : FTy → Type} [FloatOps F]

/-- Per entry, the product of a node vector's values at the entry's two ends, as a column. -/
def endsProduct (v : (⟨S50000, .f32⟩ : BufTy).Contents (Elt F)) (s d : (⟨S850000, .i32⟩ : BufTy).Contents (Elt F)) :
    (⟨S850000x1, .f32⟩ : BufTy).Contents (Elt F) :=
  broadcastInDim S850000x1 ![0] bcast_S850000_S850000x1_0 (mulf
    (Host.gather gather_S50000_S850000x1_S850000_n_0_n_n_0_1_1 v (broadcastInDim S850000x1 ![0] bcast_S850000_S850000x1_0 (wrap s)))
    (Host.gather gather_S50000_S850000x1_S850000_n_0_n_n_0_1_1 v (broadcastInDim S850000x1 ![0] bcast_S850000_S850000x1_0 (wrap d))))

/-- The factor column is that product for the inverse roots of the degrees. -/
theorem nrmOf_eq (s d : (⟨S850000, .i32⟩ : BufTy).Contents (Elt F)) : nrmOf s d = endsProduct (dinvOf d) s d := rfl

end AnyFamily

/-! ## Each host stretch, from any contents X

What a stretch leaves in the buffers later steps read, as its operations' composed term of the buffers it reads. -/

section Stretches
variable (X : Valuation τ sig (Elt Ideal))

theorem bookkeeping_src : StableHlo.after hostOps0 X (Proc.devRef .tc main_v3) = srcOf (X (Proc.devRef .tc main_arg1)) := by
  dsimp only [hostOps0]; after_results; rfl

theorem bookkeeping_dst : StableHlo.after hostOps0 X (Proc.devRef .tc main_v6) = dstOf (X (Proc.devRef .tc main_arg1)) := by
  dsimp only [hostOps0]; after_results; rfl

theorem bookkeeping_pos : StableHlo.after hostOps0 X (Proc.devRef .tc main_v12)
    = cmpf (F := Ideal) .ogt (degOf (dstOf (X (Proc.devRef .tc main_arg1)))) (broadcastInDim S50000 ![] bcast_S_S50000 (constant S_ .f32 0x00000000#32)) := by
  dsimp only [hostOps0]; after_results; rfl

theorem bookkeeping_rsqrt : StableHlo.after hostOps0 X (Proc.devRef .tc main_v13) = Host.rsqrt (degOf (dstOf (X (Proc.devRef .tc main_arg1)))) := by
  dsimp only [hostOps0]; after_results; rfl

theorem bookkeeping_zero : StableHlo.after hostOps0 X (Proc.devRef .tc main_cst_2) = constant (F := Ideal) S_ .f32 0x00000000#32 := by
  dsimp only [hostOps0]; after_results

theorem where_dinv : StableHlo.after hostOps0_1 X (Proc.devRef .tc main_v14)
    = select (X (Proc.devRef .tc main_v12)) (X (Proc.devRef .tc main_v13)) (broadcastInDim S50000 ![] bcast_S_S50000 (id (X (Proc.devRef .tc main_cst_2)))) := by
  dsimp only [hostOps0_1]; after_results; rfl

set_option maxHeartbeats 2000000 in
theorem factors_nrm : StableHlo.after hostOps0_2 X (Proc.devRef .tc main_v30)
    = endsProduct (X (Proc.devRef .tc main_v14)) (X (Proc.devRef .tc main_v3)) (X (Proc.devRef .tc main_v6)) := by
  dsimp only [hostOps0_2]; after_results_simp <;> rfl

set_option maxHeartbeats 2000000 in
theorem aggregate1 : StableHlo.after hostOps1 X (Proc.devRef .tc main_v43)
    = agg (X (Proc.devRef .tc main_v3)) (X (Proc.devRef .tc main_v6)) (X (Proc.devRef .tc main_v30)) (X (Proc.devRef .tc main_v31)) := by
  dsimp only [hostOps1]; after_results_simp <;> rfl

theorem biasrow1 : StableHlo.after hostOps1 X (Proc.devRef .tc main_v44) = shapeCast S1x256 (X (Proc.devRef .tc main_arg3)) shapeCasts_S256_S1x256 := by
  dsimp only [hostOps1]; after_results; rfl

set_option maxHeartbeats 2000000 in
theorem aggregate2 : StableHlo.after hostOps3 X (Proc.devRef .tc main_v58)
    = agg (X (Proc.devRef .tc main_v3)) (X (Proc.devRef .tc main_v6)) (X (Proc.devRef .tc main_v30)) (X (Proc.devRef .tc main_v46)) := by
  dsimp only [hostOps3]; after_results_simp <;> rfl

theorem biasrow2 : StableHlo.after hostOps3 X (Proc.devRef .tc main_v59) = shapeCast S1x256 (X (Proc.devRef .tc main_arg5)) shapeCasts_S256_S1x256 := by
  dsimp only [hostOps3]; after_results; rfl

end Stretches

/-! ## The boundaries, in order

`x e W1 b1 W2 b2` are the arguments as launched on core `c`. -/

section Levels
variable (c : Dev nD)

/-- A [256] vector reshaped to a [1, 256] row holds entry j at (0, j). -/
theorem reshape_row (b : (⟨S256, .f32⟩ : BufTy).Contents (Elt Ideal)) : shapeCast S1x256 b shapeCasts_S256_S1x256 = row b := by
  funext k
  refine shapeCast_apply b shapeCasts_S256_S1x256 k (ix1 (k 1)) ?_
  rw [Shape.rowMajor_val_one, Shape.rowMajor_val_two]
  have h0 : (k 0).val < 1 := (k 0).isLt
  show (k 1).val = (k 0).val * 256 + (k 1).val
  omega

/-! ### After the graph bookkeeping's first stretch -/

theorem W1_src : W1 m ρ c (Proc.devRef .tc main_v3) = srcOf (edges m c) := bookkeeping_src (W0 m ρ c)
theorem W1_dst : W1 m ρ c (Proc.devRef .tc main_v6) = dstOf (edges m c) := bookkeeping_dst (W0 m ρ c)
theorem W1_pos : W1 m ρ c (Proc.devRef .tc main_v12)
    = cmpf (F := Ideal) .ogt (degOf (dstOf (edges m c))) (broadcastInDim S50000 ![] bcast_S_S50000 (constant S_ .f32 0x00000000#32)) :=
  bookkeeping_pos (W0 m ρ c)
theorem W1_rsqrt : W1 m ρ c (Proc.devRef .tc main_v13) = Host.rsqrt (degOf (dstOf (edges m c))) := bookkeeping_rsqrt (W0 m ρ c)
theorem W1_zero : W1 m ρ c (Proc.devRef .tc main_cst_2) = constant (F := Ideal) S_ .f32 0x00000000#32 := bookkeeping_zero (W0 m ρ c)
theorem W1_arg0 : W1 m ρ c (Proc.devRef .tc main_arg0) = m ((c : Thread nD τ).loc main_arg0) := by not_written hostOps0
theorem W1_arg2 : W1 m ρ c (Proc.devRef .tc main_arg2) = m ((c : Thread nD τ).loc main_arg2) := by not_written hostOps0
theorem W1_arg3 : W1 m ρ c (Proc.devRef .tc main_arg3) = m ((c : Thread nD τ).loc main_arg3) := by not_written hostOps0
theorem W1_arg4 : W1 m ρ c (Proc.devRef .tc main_arg4) = m ((c : Thread nD τ).loc main_arg4) := by not_written hostOps0
theorem W1_arg5 : W1 m ρ c (Proc.devRef .tc main_arg5) = m ((c : Thread nD τ).loc main_arg5) := by not_written hostOps0

/-! ### After the choice between the inverse root and zero -/

theorem W2_dinv : W2 m ρ c (Proc.devRef .tc main_v14) = dinvOf (dstOf (edges m c)) :=
  (where_dinv (W1 m ρ c)).trans (by rw [W1_pos m ρ c, W1_rsqrt m ρ c, W1_zero m ρ c]; rfl)
theorem W2_src : W2 m ρ c (Proc.devRef .tc main_v3) = srcOf (edges m c) :=
  (show W2 m ρ c (Proc.devRef .tc main_v3) = W1 m ρ c (Proc.devRef .tc main_v3) by not_written hostOps0_1).trans (W1_src m ρ c)
theorem W2_dst : W2 m ρ c (Proc.devRef .tc main_v6) = dstOf (edges m c) :=
  (show W2 m ρ c (Proc.devRef .tc main_v6) = W1 m ρ c (Proc.devRef .tc main_v6) by not_written hostOps0_1).trans (W1_dst m ρ c)
theorem W2_arg0 : W2 m ρ c (Proc.devRef .tc main_arg0) = m ((c : Thread nD τ).loc main_arg0) :=
  (show W2 m ρ c (Proc.devRef .tc main_arg0) = W1 m ρ c (Proc.devRef .tc main_arg0) by not_written hostOps0_1).trans (W1_arg0 m ρ c)
theorem W2_arg2 : W2 m ρ c (Proc.devRef .tc main_arg2) = m ((c : Thread nD τ).loc main_arg2) :=
  (show W2 m ρ c (Proc.devRef .tc main_arg2) = W1 m ρ c (Proc.devRef .tc main_arg2) by not_written hostOps0_1).trans (W1_arg2 m ρ c)
theorem W2_arg3 : W2 m ρ c (Proc.devRef .tc main_arg3) = m ((c : Thread nD τ).loc main_arg3) :=
  (show W2 m ρ c (Proc.devRef .tc main_arg3) = W1 m ρ c (Proc.devRef .tc main_arg3) by not_written hostOps0_1).trans (W1_arg3 m ρ c)
theorem W2_arg4 : W2 m ρ c (Proc.devRef .tc main_arg4) = m ((c : Thread nD τ).loc main_arg4) :=
  (show W2 m ρ c (Proc.devRef .tc main_arg4) = W1 m ρ c (Proc.devRef .tc main_arg4) by not_written hostOps0_1).trans (W1_arg4 m ρ c)
theorem W2_arg5 : W2 m ρ c (Proc.devRef .tc main_arg5) = m ((c : Thread nD τ).loc main_arg5) :=
  (show W2 m ρ c (Proc.devRef .tc main_arg5) = W1 m ρ c (Proc.devRef .tc main_arg5) by not_written hostOps0_1).trans (W1_arg5 m ρ c)

/-! ### At the first product's entry -/

theorem W3_nrm : W3 m ρ c (Proc.devRef .tc main_v30) = nrmOf (srcOf (edges m c)) (dstOf (edges m c)) :=
  (factors_nrm (W2 m ρ c)).trans (by rw [W2_dinv m ρ c, W2_src m ρ c, W2_dst m ρ c, nrmOf_eq])
theorem W3_src : W3 m ρ c (Proc.devRef .tc main_v3) = srcOf (edges m c) :=
  (show W3 m ρ c (Proc.devRef .tc main_v3) = W2 m ρ c (Proc.devRef .tc main_v3) by not_written hostOps0_2).trans (W2_src m ρ c)
theorem W3_dst : W3 m ρ c (Proc.devRef .tc main_v6) = dstOf (edges m c) :=
  (show W3 m ρ c (Proc.devRef .tc main_v6) = W2 m ρ c (Proc.devRef .tc main_v6) by not_written hostOps0_2).trans (W2_dst m ρ c)
theorem W3_arg0 : W3 m ρ c (Proc.devRef .tc main_arg0) = m ((c : Thread nD τ).loc main_arg0) :=
  (show W3 m ρ c (Proc.devRef .tc main_arg0) = W2 m ρ c (Proc.devRef .tc main_arg0) by not_written hostOps0_2).trans (W2_arg0 m ρ c)
theorem W3_arg2 : W3 m ρ c (Proc.devRef .tc main_arg2) = m ((c : Thread nD τ).loc main_arg2) :=
  (show W3 m ρ c (Proc.devRef .tc main_arg2) = W2 m ρ c (Proc.devRef .tc main_arg2) by not_written hostOps0_2).trans (W2_arg2 m ρ c)
theorem W3_arg3 : W3 m ρ c (Proc.devRef .tc main_arg3) = m ((c : Thread nD τ).loc main_arg3) :=
  (show W3 m ρ c (Proc.devRef .tc main_arg3) = W2 m ρ c (Proc.devRef .tc main_arg3) by not_written hostOps0_2).trans (W2_arg3 m ρ c)
theorem W3_arg4 : W3 m ρ c (Proc.devRef .tc main_arg4) = m ((c : Thread nD τ).loc main_arg4) :=
  (show W3 m ρ c (Proc.devRef .tc main_arg4) = W2 m ρ c (Proc.devRef .tc main_arg4) by not_written hostOps0_2).trans (W2_arg4 m ρ c)
theorem W3_arg5 : W3 m ρ c (Proc.devRef .tc main_arg5) = m ((c : Thread nD τ).loc main_arg5) :=
  (show W3 m ρ c (Proc.devRef .tc main_arg5) = W2 m ρ c (Proc.devRef .tc main_arg5) by not_written hostOps0_2).trans (W2_arg5 m ρ c)

/-! ### After the first product -/

theorem W4_prod : W4 m ρ c (Proc.devRef .tc main_v31)
    = Cert.Gcn.matProd (m ((c : Thread nD τ).loc main_arg0)) (m ((c : Thread nD τ).loc main_arg2)) :=
  (W4_arr m ρ c 2).trans ((Region0.product (V3 m ρ) c).trans (congrArg₂ Cert.Gcn.matProd (W3_arg0 m ρ c) (W3_arg2 m ρ c)))
theorem W4_src : W4 m ρ c (Proc.devRef .tc main_v3) = srcOf (edges m c) := (W4_of_ne m ρ c main_v3 (by decide)).trans (W3_src m ρ c)
theorem W4_dst : W4 m ρ c (Proc.devRef .tc main_v6) = dstOf (edges m c) := (W4_of_ne m ρ c main_v6 (by decide)).trans (W3_dst m ρ c)
theorem W4_nrm : W4 m ρ c (Proc.devRef .tc main_v30) = nrmOf (srcOf (edges m c)) (dstOf (edges m c)) :=
  (W4_of_ne m ρ c main_v30 (by decide)).trans (W3_nrm m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)

/-! ### After the first aggregation -/

theorem W5_agg : W5 m ρ c (Proc.devRef .tc main_v43)
    = aggE (edges m c) (Cert.Gcn.matProd (m ((c : Thread nD τ).loc main_arg0)) (m ((c : Thread nD τ).loc main_arg2))) :=
  (aggregate1 (W4 m ρ c)).trans (by rw [W4_src m ρ c, W4_dst m ρ c, W4_nrm m ρ c, W4_prod m ρ c]; rfl)
theorem W5_row : W5 m ρ c (Proc.devRef .tc main_v44) = row (m ((c : Thread nD τ).loc main_arg3)) :=
  (biasrow1 (W4 m ρ c)).trans (by rw [W4_arg3 m ρ c]; exact reshape_row _)
theorem W5_src : W5 m ρ c (Proc.devRef .tc main_v3) = srcOf (edges m c) :=
  (show W5 m ρ c (Proc.devRef .tc main_v3) = W4 m ρ c (Proc.devRef .tc main_v3) by not_written hostOps1).trans (W4_src m ρ c)
theorem W5_dst : W5 m ρ c (Proc.devRef .tc main_v6) = dstOf (edges m c) :=
  (show W5 m ρ c (Proc.devRef .tc main_v6) = W4 m ρ c (Proc.devRef .tc main_v6) by not_written hostOps1).trans (W4_dst m ρ c)
theorem W5_nrm : W5 m ρ c (Proc.devRef .tc main_v30) = nrmOf (srcOf (edges m c)) (dstOf (edges m c)) :=
  (show W5 m ρ c (Proc.devRef .tc main_v30) = W4 m ρ c (Proc.devRef .tc main_v30) by not_written hostOps1).trans (W4_nrm m ρ c)
theorem W5_arg4 : W5 m ρ c (Proc.devRef .tc main_arg4) = m ((c : Thread nD τ).loc main_arg4) :=
  (show W5 m ρ c (Proc.devRef .tc main_arg4) = W4 m ρ c (Proc.devRef .tc main_arg4) by not_written hostOps1).trans (W4_arg4 m ρ c)
theorem W5_arg5 : W5 m ρ c (Proc.devRef .tc main_arg5) = m ((c : Thread nD τ).loc main_arg5) :=
  (show W5 m ρ c (Proc.devRef .tc main_arg5) = W4 m ρ c (Proc.devRef .tc main_arg5) by not_written hostOps1).trans (W4_arg5 m ρ c)

/-! ### After the first bias step -/

theorem W6_hidden : W6 m ρ c (Proc.devRef .tc main_v45)
    = hidden (m ((c : Thread nD τ).loc main_arg0)) (edges m c) (m ((c : Thread nD τ).loc main_arg2)) (m ((c : Thread nD τ).loc main_arg3)) :=
  (W6_arr m ρ c 2).trans ((Region1.biased (V5 m ρ) c).trans
    (congrArg₂ (Cert.Gcn.addRowMax (Ideal.ofBits .f32 0x00000000#32)) (W5_agg m ρ c) (W5_row m ρ c)))
theorem W6_src : W6 m ρ c (Proc.devRef .tc main_v3) = srcOf (edges m c) := (W6_of_ne m ρ c main_v3 (by decide)).trans (W5_src m ρ c)
theorem W6_dst : W6 m ρ c (Proc.devRef .tc main_v6) = dstOf (edges m c) := (W6_of_ne m ρ c main_v6 (by decide)).trans (W5_dst m ρ c)
theorem W6_nrm : W6 m ρ c (Proc.devRef .tc main_v30) = nrmOf (srcOf (edges m c)) (dstOf (edges m c)) :=
  (W6_of_ne m ρ c main_v30 (by decide)).trans (W5_nrm m ρ c)
theorem W6_arg4 : W6 m ρ c (Proc.devRef .tc main_arg4) = m ((c : Thread nD τ).loc main_arg4) := (W6_of_ne m ρ c main_arg4 (by decide)).trans (W5_arg4 m ρ c)
theorem W6_arg5 : W6 m ρ c (Proc.devRef .tc main_arg5) = m ((c : Thread nD τ).loc main_arg5) := (W6_of_ne m ρ c main_arg5 (by decide)).trans (W5_arg5 m ρ c)

/-! ### After the second product -/

theorem W7_prod : W7 m ρ c (Proc.devRef .tc main_v46)
    = Cert.Gcn.matProd (hidden (m ((c : Thread nD τ).loc main_arg0)) (edges m c) (m ((c : Thread nD τ).loc main_arg2)) (m ((c : Thread nD τ).loc main_arg3)))
        (m ((c : Thread nD τ).loc main_arg4)) :=
  (W7_arr m ρ c 2).trans ((Region2.product (V6 m ρ) c).trans (congrArg₂ Cert.Gcn.matProd (W6_hidden m ρ c) (W6_arg4 m ρ c)))
theorem W7_src : W7 m ρ c (Proc.devRef .tc main_v3) = srcOf (edges m c) := (W7_of_ne m ρ c main_v3 (by decide)).trans (W6_src m ρ c)
theorem W7_dst : W7 m ρ c (Proc.devRef .tc main_v6) = dstOf (edges m c) := (W7_of_ne m ρ c main_v6 (by decide)).trans (W6_dst m ρ c)
theorem W7_nrm : W7 m ρ c (Proc.devRef .tc main_v30) = nrmOf (srcOf (edges m c)) (dstOf (edges m c)) :=
  (W7_of_ne m ρ c main_v30 (by decide)).trans (W6_nrm m ρ c)
theorem W7_arg5 : W7 m ρ c (Proc.devRef .tc main_arg5) = m ((c : Thread nD τ).loc main_arg5) := (W7_of_ne m ρ c main_arg5 (by decide)).trans (W6_arg5 m ρ c)

/-! ### After the second aggregation -/

theorem W8_agg : W8 m ρ c (Proc.devRef .tc main_v58)
    = aggE (edges m c) (Cert.Gcn.matProd (hidden (m ((c : Thread nD τ).loc main_arg0)) (edges m c) (m ((c : Thread nD τ).loc main_arg2)) (m ((c : Thread nD τ).loc main_arg3)))
        (m ((c : Thread nD τ).loc main_arg4))) :=
  (aggregate2 (W7 m ρ c)).trans (by rw [W7_src m ρ c, W7_dst m ρ c, W7_nrm m ρ c, W7_prod m ρ c]; rfl)
theorem W8_row : W8 m ρ c (Proc.devRef .tc main_v59) = row (m ((c : Thread nD τ).loc main_arg5)) :=
  (biasrow2 (W7 m ρ c)).trans (by rw [W7_arg5 m ρ c]; exact reshape_row _)

end Levels

/-- The result buffer at the last boundary is the whole computation of the arguments as launched. -/
theorem result_eq (c : Dev nD) :
    W9 (F := Ideal) m ρ c (Proc.devRef .tc main_v60)
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (W9_arr m ρ c 2).trans ((Region3.biased (V8 m ρ) c).trans (congrArg₂ Cert.Gcn.addRow (W8_agg m ρ c) (W8_row m ρ c)))

end Cert.KernelIdeal.Walk

end
-- ==== Proof.RefSide.lean ====
/-
  The reference program's result as the same function of its arguments.

  The reference's run ends with its result at one composed term: the same graph bookkeeping and the same two
  aggregations as the kernel program's host side, around two host matrix products and two bias additions (the first
  followed by a maximum with zero). On the extended reals a host matrix product is the plain sum over the inner axis,
  and a bias vector broadcast first to a [1, 256] row and then down the 50000 rows adds entry j to column j.

  The steps: for any float family the composed term is, read as written, the two aggregations around the two products
  and the two bias steps; at the extended reals each product is the sum over its inner axis and each bias step the
  row addition; put together they are the whole computation.
-/
import proofs.«119783_j47150150975760_1_alg».proof.Proof.RefRun
import proofs.«119783_j47150150975760_1_alg».proof.Proof.Shared
import proofs.«119783_j47150150975760_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.ShloMosaic.ValueIdx
open Idealize.SL.Sem

/-! ## The shape of the result term, for any float family -/

section AnyFamily
variable {F : FTy → Type} [FloatOps F]

/-- The composed term is the aggregation of (the clamped, biased aggregation of x W1) W2, plus the second bias: the
    graph bookkeeping inside it is, operation for operation, the one the aggregation is defined by. -/
theorem result_shape (m : (ℓ : Loc nD τ sig) → Buf (Elt F) ℓ) (c : Dev nD) :
    Cert.ReferenceIdeal.RunP.res_main_v79 (F := F) m c
      = addf (Cert.KernelIdeal.Glue.aggE (F := F) (m ((c.tc : Thread nD τ).loc main_arg1))
          (Host.dotGeneral dot_S50000x256_S256x256_S50000x256_1_0_0_1_n_n none
            (maximumf (addf (Cert.KernelIdeal.Glue.aggE (F := F) (m ((c.tc : Thread nD τ).loc main_arg1))
                (Host.dotGeneral dot_S50000x768_S768x256_S50000x256_1_0_0_1_n_n none (m ((c.tc : Thread nD τ).loc main_arg0)) (m ((c.tc : Thread nD τ).loc main_arg2))))
              (broadcastInDim S50000x256 ![0, 1] bcast_S1x256_S50000x256_0_1 (broadcastInDim S1x256 ![1] bcast_S256_S1x256_1 (m ((c.tc : Thread nD τ).loc main_arg3)))))
              (broadcastInDim S50000x256 ![] bcast_S_S50000x256 (constant S_ .f32 0x00000000#32)))
            (m ((c.tc : Thread nD τ).loc main_arg4))))
          (broadcastInDim S50000x256 ![0, 1] bcast_S1x256_S50000x256_0_1 (broadcastInDim S1x256 ![1] bcast_S256_S1x256_1 (m ((c.tc : Thread nD τ).loc main_arg5)))) := by
  unfold Cert.ReferenceIdeal.RunP.res_main_v79
  rfl

end AnyFamily

/-! ## The two host products on the extended reals -/

/-! The first product's dimension numbers: the result's row is the left operand's first coordinate, its column the
    right operand's second, and the one summed axis is the left operand's second and the right operand's first. -/

theorem dotIn_rank : dot_S50000x768_S768x256_S50000x256_1_0_0_1_n_n.contr.rank = 1 := rfl

theorem dotIn_size : dot_S50000x768_S768x256_S50000x256_1_0_0_1_n_n.contr.size ⟨0, by rw [dotIn_rank]; omega⟩ = 768 := rfl

theorem dotIn_lhs_0 (i : S50000x256.Idx) (q : dot_S50000x768_S768x256_S50000x256_1_0_0_1_n_n.contr.Idx) :
    (dot_S50000x768_S768x256_S50000x256_1_0_0_1_n_n.lhsIdx i q 0).val = (i 0).val := by
  unfold DotDims.lhsIdx
  rw [dif_neg (show ¬(0 : Fin S50000x768.rank) ∈ dot_S50000x768_S768x256_S50000x256_1_0_0_1_n_n.lhsBatch by decide),
    dif_pos (show (0 : Fin S50000x768.rank) ∈ dot_S50000x768_S768x256_S50000x256_1_0_0_1_n_n.lhsNonContracting by decide)]
  rfl

theorem dotIn_lhs_1 (i : S50000x256.Idx) (q : dot_S50000x768_S768x256_S50000x256_1_0_0_1_n_n.contr.Idx) :
    (dot_S50000x768_S768x256_S50000x256_1_0_0_1_n_n.lhsIdx i q 1).val = (q ⟨0, by rw [dotIn_rank]; omega⟩).val :=
  dot_S50000x768_S768x256_S50000x256_1_0_0_1_n_n.lhsIdx_val_of_single (cl := 1) rfl i q

theorem dotIn_rhs_0 (i : S50000x256.Idx) (q : dot_S50000x768_S768x256_S50000x256_1_0_0_1_n_n.contr.Idx) :
    (dot_S50000x768_S768x256_S50000x256_1_0_0_1_n_n.rhsIdx i q 0).val = (q ⟨0, by rw [dotIn_rank]; omega⟩).val :=
  dot_S50000x768_S768x256_S50000x256_1_0_0_1_n_n.rhsIdx_val_of_single (cr := 0) rfl i q

theorem dotIn_rhs_1 (i : S50000x256.Idx) (q : dot_S50000x768_S768x256_S50000x256_1_0_0_1_n_n.contr.Idx) :
    (dot_S50000x768_S768x256_S50000x256_1_0_0_1_n_n.rhsIdx i q 1).val = (i 1).val := by
  unfold DotDims.rhsIdx
  rw [dif_neg (show ¬(1 : Fin S768x256.rank) ∈ dot_S50000x768_S768x256_S50000x256_1_0_0_1_n_n.rhsBatch by decide),
    dif_pos (show (1 : Fin S768x256.rank) ∈ dot_S50000x768_S768x256_S50000x256_1_0_0_1_n_n.rhsNonContracting by decide)]
  rfl

/-- The first host product on the extended reals is the plain sum over the inner axis. -/
theorem dotIn_eq (l : FVec Ideal S50000x768 .f32) (r : FVec Ideal S768x256 .f32) :
    Host.dotGeneral (F := Ideal) dot_S50000x768_S768x256_S50000x256_1_0_0_1_n_n none l r = Cert.Gcn.matProd l r := by
  funext i
  obtain ⟨p, j, rfl⟩ : ∃ (p : Fin 50000) (j : Fin 256), i = ix2 p j := ⟨i 0, i 1, eq_ix2 i⟩
  show FloatOps.dotGeneral dot_S50000x768_S768x256_S50000x256_1_0_0_1_n_n none .single l r (ix2 p j) = _
  rw [Ideal.dotGeneral_apply]
  exact Cert.Lib.Dot2.contraction_ix2 dot_S50000x768_S768x256_S50000x256_1_0_0_1_n_n dotIn_rank dotIn_size
    dotIn_lhs_0 dotIn_lhs_1 dotIn_rhs_0 dotIn_rhs_1 l r p j

/-! The second product's dimension numbers: the result's row is the left operand's first coordinate, its column the
    right operand's second, and the one summed axis is the left operand's second and the right operand's first. -/

theorem dotOut_rank : dot_S50000x256_S256x256_S50000x256_1_0_0_1_n_n.contr.rank = 1 := rfl

theorem dotOut_size : dot_S50000x256_S256x256_S50000x256_1_0_0_1_n_n.contr.size ⟨0, by rw [dotOut_rank]; omega⟩ = 256 := rfl

theorem dotOut_lhs_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide),
    dif_pos (show (0 : Fin S50000x256.rank) ∈ dot_S50000x256_S256x256_S50000x256_1_0_0_1_n_n.lhsNonContracting by decide)]
  rfl

theorem dotOut_lhs_1 (i : S50000x256.Idx) (q : dot_S50000x256_S256x256_S50000x256_1_0_0_1_n_n.contr.Idx) :
    (dot_S50000x256_S256x256_S50000x256_1_0_0_1_n_n.lhsIdx i q 1).val = (q ⟨0, by rw [dotOut_rank]; omega⟩).val :=
  dot_S50000x256_S256x256_S50000x256_1_0_0_1_n_n.lhsIdx_val_of_single (cl := 1) rfl i q

theorem dotOut_rhs_0 (i : S50000x256.Idx) (q : dot_S50000x256_S256x256_S50000x256_1_0_0_1_n_n.contr.Idx) :
    (dot_S50000x256_S256x256_S50000x256_1_0_0_1_n_n.rhsIdx i q 0).val = (q ⟨0, by rw [dotOut_rank]; omega⟩).val :=
  dot_S50000x256_S256x256_S50000x256_1_0_0_1_n_n.rhsIdx_val_of_single (cr := 0) rfl i q

theorem dotOut_rhs_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide),
    dif_pos (show (1 : Fin S256x256.rank) ∈ dot_S50000x256_S256x256_S50000x256_1_0_0_1_n_n.rhsNonContracting by decide)]
  rfl

/-- The second host product on the extended reals is the plain sum over the inner axis. -/
theorem dotOut_eq (l : FVec Ideal S50000x256 .f32) (r : FVec Ideal S256x256 .f32) :
    Host.dotGeneral (F := Ideal) dot_S50000x256_S256x256_S50000x256_1_0_0_1_n_n none l r = Cert.Gcn.matProd l r := by
  funext i
  obtain ⟨p, j, rfl⟩ : ∃ (p : Fin 50000) (j : Fin 256), i = ix2 p j := ⟨i 0, i 1, eq_ix2 i⟩
  show FloatOps.dotGeneral dot_S50000x256_S256x256_S50000x256_1_0_0_1_n_n none .single l r (ix2 p j) = _
  rw [Ideal.dotGeneral_apply]
  exact Cert.Lib.Dot2.contraction_ix2 dot_S50000x256_S256x256_S50000x256_1_0_0_1_n_n dotOut_rank dotOut_size
    dotOut_lhs_0 dotOut_lhs_1 dotOut_rhs_0 dotOut_rhs_1 l r p j

/-! ## The two bias steps on the extended reals -/

/-- A bias vector broadcast to a [1, 256] row and then down the rows adds entry j to column j. -/
theorem addBias_eq (A : FVec Ideal S50000x256 .f32) (b : FVec Ideal S256 .f32) :
    addf A (broadcastInDim S50000x256 ![0, 1] bcast_S1x256_S50000x256_0_1 (broadcastInDim S1x256 ![1] bcast_S256_S1x256_1 b))
      = Cert.Gcn.addRow A (Cert.KernelIdeal.Glue.row b) := by
  funext i
  obtain ⟨p, j, rfl⟩ : ∃ (p : Fin 50000) (j : Fin 256), i = ix2 p j := ⟨i 0, i 1, eq_ix2 i⟩
  rw [addf_apply]
  show A (ix2 p j) + _ = A (ix2 p j) + b (ix1 j)
  congr 1
  refine (broadcastInDim_apply _ _ _ _ (ix2 (0 : Fin 1) j) ?_).trans ?_
  · intro a
    match a with
    | ⟨0, _⟩ => rfl
    | ⟨1, _⟩ => rfl
  refine broadcastInDim_apply _ _ _ _ (ix1 j) ?_
  intro a
  match a with
  | ⟨0, _⟩ => rfl

/-- The same followed by the maximum with the zero word broadcast to every entry. -/
theorem addBiasMax_eq (A : FVec Ideal S50000x256 .f32) (b : FVec Ideal S256 .f32) :
    maximumf (addf A (broadcastInDim S50000x256 ![0, 1] bcast_S1x256_S50000x256_0_1 (broadcastInDim S1x256 ![1] bcast_S256_S1x256_1 b)))
        (broadcastInDim S50000x256 ![] bcast_S_S50000x256 (constant (F := Ideal) S_ .f32 0x00000000#32))
      = Cert.Gcn.addRowMax (Ideal.ofBits .f32 0x00000000#32) A (Cert.KernelIdeal.Glue.row b) := by
  funext i
  rw [maximumf_apply, addBias_eq]
  rfl

/-! ## The whole -/

/-- The reference's result term is the whole computation of its arguments. -/
theorem result_eq (m : (ℓ : Loc nD τ sig) → Buf (Elt Ideal) ℓ) (c : Dev nD) :
    Cert.ReferenceIdeal.RunP.res_main_v79 (F := Ideal) m c
      = Cert.KernelIdeal.Glue.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [result_shape (F := Ideal) m c, dotIn_eq, addBiasMax_eq, dotOut_eq, addBias_eq]
  rfl

end Cert.ReferenceIdeal.RefValue

end
-- ==== Proof.lean ====
/-
  A two-layer graph convolution computed with four tiled kernels (two matrix products on 2000-row tiles, two bias
  steps on 2000-row tiles) against the same convolution written with whole-array operations.

  Both programs build the same normalised graph from the edge list and aggregate with the same gather, scale and
  scatter-add; they differ in how a layer's matrix product and bias addition are computed. On the extended reals a
  tile's product into a zero accumulator and the whole-array product are the same sum over the inner axis, rounding
  the operands to a shorter format changes nothing, and adding a [1, 256] row tile by tile is adding the bias vector
  broadcast down the rows. So both results are one function of the arguments (Shared.lean's `gcn`); no step moves a
  factor across a sum, and the inputs' finiteness is not used.

  The three frames: the two kernel programs' runs terminate with the arguments unchanged (the generated frame
  certificates), and so does the reference's (its run read back). The idealized kernel program is the printed program
  read at the extended reals with no rewrite, so nothing is owed for it.
-/
import proofs.«119783_j47150150975760_1_alg».proof.Defs
import proofs.«119783_j47150150975760_1_alg».proof.Proof.Gen.Kernel
import proofs.«119783_j47150150975760_1_alg».proof.Proof.Gen.Kernel.Frame
import proofs.«119783_j47150150975760_1_alg».proof.Proof.Gen.KernelIdeal
import proofs.«119783_j47150150975760_1_alg».proof.Proof.Gen.KernelIdeal.Frame
import proofs.«119783_j47150150975760_1_alg».proof.Proof.Gen.ReferenceIdeal
import proofs.«119783_j47150150975760_1_alg».proof.Proof.Gen.Pre_finite_inputs
import proofs.«119783_j47150150975760_1_alg».proof.Proof.KRun
import proofs.«119783_j47150150975760_1_alg».proof.Proof.Walk
import proofs.«119783_j47150150975760_1_alg».proof.Proof.RefRun
import proofs.«119783_j47150150975760_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both runs end with the result at the one function of the arguments, which agree. -/
theorem algebraic : Cert.algebraic_KernelIdeal_ReferenceIdeal := by
  intro m ρ m' ρ' _ hagree
  refine ⟨fun c => Cert.KernelIdeal.Glue.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.result_eq m' c,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
